-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S1024x128 : Shape := ⟨2, ![1024, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S131072x128 .f32) (main_arg1 : FVec F S1024x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S131072x128 : Shape := ⟨2, ![131072, 128]⟩
abbrev S1024x128 : Shape := ⟨2, ![1024, 128]⟩
abbrev S131072x1024 : Shape := ⟨2, ![131072, 1024]⟩
abbrev S1024x1024 : Shape := ⟨2, ![1024, 1024]⟩
abbrev S1024 : Shape := ⟨1, ![1024]⟩
abbrev S1024x1 : Shape := ⟨2, ![1024, 1]⟩
abbrev S128x1024 : Shape := ⟨2, ![128, 1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S131072x128, .f32⟩
  | .hbm, ⟨1, _⟩ => ⟨S1024x128, .f32⟩
  | .hbm, ⟨2, _⟩ => ⟨S131072x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x1024, .f32⟩
  | .local _ .vmem, ⟨4, _⟩ => ⟨S1024x1024, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  bitsLt_bf16_f32 : FTy.bits .bf16 < FTy.bits .f32
  transposes_S1024x128_p1_0_S128x1024 : S1024x128.Transposes [1, 0] S128x1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S131072x1024.size a
  hwx0_2 : ∀ i : grid0.Coords, EltTy.bits .f32 = 32 ∨ (Rect.block (s := S131072x1024) S1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x128 : Shape := ⟨2, ![131072, 128]⟩
abbrev S1024x128 : Shape := ⟨2, ![1024, 128]⟩
abbrev S_ : Shape := ⟨0, ![]⟩
abbrev S131072 : Shape := ⟨1, ![131072]⟩
abbrev S131072x1 : Shape := ⟨2, ![131072, 1]⟩
abbrev S1024 : Shape := ⟨1, ![1024]⟩
abbrev S131072x1024 : Shape := ⟨2, ![131072, 1024]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S1024x128, .f32⟩
  | .hbm, ⟨2, _⟩ => ⟨S131072x128, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S1024x128, .f32⟩
  | .hbm, ⟨7, _⟩ => ⟨S_, .f32⟩
  | .hbm, ⟨8, _⟩ => ⟨S1024, .f32⟩
  | .hbm, ⟨9, _⟩ => ⟨S131072x1024, .f32⟩
  | .hbm, ⟨10, _⟩ => ⟨S1x1024, .f32⟩
  | .hbm, ⟨11, _⟩ => ⟨S131072x1024, .f32⟩
  | .hbm, ⟨12, _⟩ => ⟨S131072x1024, .f32⟩
  | .hbm, ⟨13, _⟩ => ⟨S131072x1024, .f32⟩
  | .hbm, ⟨14, _⟩ => ⟨S_, .f32⟩
  | .hbm, ⟨15, _⟩ => ⟨S131072x1024, .f32⟩
  | .hbm, ⟨16, _⟩ => ⟨S131072x1024, .f32⟩
  | .hbm, ⟨17, _⟩ => ⟨S131072x1024, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S1024x128_S1024_d1 : S1024x128.ReducesTo [1] S1024
  bcast_S1024_S1x1024_1 : S1024.BroadcastsInDim S1x1024 (![1] : Fin 1 → Fin S1x1024.rank)
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  dot_S131072x128_S1024x128_S131072x1024_1_1_0_0_n_n_wf : DotDims.WF S131072x128 S1024x128 S131072x1024 [1] [1] [0] [0] [] []

variable [Facts₀]

def dot_S131072x128_S1024x128_S131072x1024_1_1_0_0_n_n : DotDims S131072x128 S1024x128 S131072x1024 where
  lhsContracting := [1]
  rhsContracting := [1]
  lhsNonContracting := [0]
  rhsNonContracting := [0]
  lhsBatch := []
  rhsBatch := []
  wf := dot_S131072x128_S1024x128_S131072x1024_1_1_0_0_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.SqDist.lean ====
/-
  Squared distances between the rows of two arrays, by the expansion |x − w|² = |x|² + |w|² − 2 x·w.

  For `x` of `N` rows and `w` of `C` rows, all of length `D`, the table's entry `(p, q)` is
  `(∑ d, x[p,d]·x[p,d] + ∑ d, w[q,d]·w[q,d]) − 2 · ∑ d, x[p,d]·w[q,d]` on the extended reals, the `2` kept as the
  word that denotes it. Nothing is expanded or cancelled below: a program that computes the table this way forms the two
  squared norms and the inner product and combines them in exactly this order, so no law of the extended reals that could
  fail at an infinity is ever used. What differs between two such programs is how each of the three sums is LAID OUT: a
  sum along the lanes kept as a column `[a, 1]` or as a row `[1, c]` and broadcast over the table, an inner product taken
  against a transposed operand. Each of those layouts is read here at one entry `(p, q)`.
-/
import Idealize.ShloMosaic.PureOps.Ideal.Laws
import Idealize.ShloMosaic.Lib.ValueIdx
import Idealize.ShloMosaic.Lib.ValueLayout
import Idealize.ShloMosaic.Lib.Pipeline.Value
import proofs.«148646_j14139032339041_1_alg».proof.Proof.LibDot

noncomputable section

namespace Cert.SqDist

open Idealize.ShloMosaic Idealize.ShloMosaic.ValueIdx

/-! ## The table -/

/-- Entry `(p, q)`: the squared norm of row `p` of `x` plus that of row `q` of `w`, less twice their inner product. -/
def entry {N C D : ℕ} (x : FVec Ideal ⟨2, ![N, D]⟩ .f32) (w : FVec Ideal ⟨2, ![C, D]⟩ .f32) (p : Fin N) (q : Fin C) : EReal :=
  ((∑ d : Fin D, x (ix2 p d) * x (ix2 p d)) + ∑ d : Fin D, w (ix2 q d) * w (ix2 q d))
    - Ideal.ofBits .f32 0x40000000#32 * ∑ d : Fin D, x (ix2 p d) * w (ix2 q d)

/-- The whole table, entry by entry. -/
def table {N C D : ℕ} (x : FVec Ideal ⟨2, ![N, D]⟩ .f32) (w : FVec Ideal ⟨2, ![C, D]⟩ .f32) : FVec Ideal ⟨2, ![N, C]⟩ .f32 :=
  fun i => entry x w (i 0) (i 1)

theorem table_apply {N C D : ℕ} (x : FVec Ideal ⟨2, ![N, D]⟩ .f32) (w : FVec Ideal ⟨2, ![C, D]⟩ .f32) (p : Fin N) (q : Fin C) :
    table x w (ix2 p q) = entry x w p q := rfl

/-- The entry only reads row `p` of `x` and row `q` of `w`: two pairs of arrays that agree on those rows have the same
    entry, whatever their sizes and wherever the rows sit in them. -/
theorem entry_congr {N N' C C' D : ℕ} (x : FVec Ideal ⟨2, ![N, D]⟩ .f32) (x' : FVec Ideal ⟨2, ![N', D]⟩ .f32)
    (w : FVec Ideal ⟨2, ![C, D]⟩ .f32) (w' : FVec Ideal ⟨2, ![C', D]⟩ .f32) (p : Fin N) (p' : Fin N') (q : Fin C) (q' : Fin C')
    (hx : ∀ d : Fin D, x (ix2 p d) = x' (ix2 p' d)) (hw : ∀ d : Fin D, w (ix2 q d) = w' (ix2 q' d)) :
    entry x w p q = entry x' w' p' q' := by
  unfold entry
  simp only [hx, hw]

/-! ## A vector kept as a column, and a column spread over a table -/

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(p, q)`, the column at `p`. -/
theorem broadcastTo_a1_ac_apply {a c : ℕ} (v : (⟨2, ![a, 1]⟩ : Shape).Idx → α) (h : (⟨2, ![a, 1]⟩ : Shape).Broadcasts ⟨2, ![a, c]⟩)
    (p : Fin a) (q : Fin c) : broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The three sums, each in the layouts it is met in -/

/-- A sum along the lanes of an `[a, b]` array, at row `p`: the sum over `k` of the entries `(p, k)`. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => match ax with | ⟨0, _⟩ => rfl | ⟨1, _⟩ => rfl))

/-- The squared norms of the rows of `x`, kept as a column and spread along the rows of the table: at `(p, q)` the squared
    norm of row `p`. -/
theorem rowNorms_apply {a b c : ℕ} (x : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, c]⟩) (p : Fin a) (q : Fin c) :
    broadcastTo ⟨2, ![a, c]⟩ (shapeCast ⟨2, ![a, 1]⟩ (multiReduction .add [1] ⟨1, ![a]⟩ (mulf x x) 0x00000000#32 hr hφ hacc) hc) hb (ix2 p q)
      = ∑ d : Fin b, x (ix2 p d) * x (ix2 p d) :=
  (broadcastTo_a1_ac_apply _ hb p q).trans ((shapeCast_a_a1_apply _ hc p 0).trans (laneSum_apply (mulf x x) hr hφ hacc p))

/-- The squared norms of the rows of `w`, kept as one row and spread down the columns of the table: at `(p, q)` the squared
    norm of row `q`. -/
theorem colNorms_apply {a b c : ℕ} (w : FVec Ideal ⟨2, ![c, b]⟩ .f32) (hr : (⟨2, ![c, b]⟩ : Shape).Reduces [1] ⟨1, ![c]⟩)
    (hφ : FKind.Formats .f32) (hacc : (0x00000000#32 : BitVec 32) = FKind.add.neutral .f32 hφ)
    (hc : (⟨1, ![c]⟩ : Shape).ShapeCasts ⟨2, ![1, c]⟩) (hb : (⟨2, ![1, c]⟩ : Shape).Broadcasts ⟨2, ![a, c]⟩) (p : Fin a) (q : Fin c) :
    broadcastTo ⟨2, ![a, c]⟩ (shapeCast ⟨2, ![1, c]⟩ (multiReduction .add [1] ⟨1, ![c]⟩ (mulf w w) 0x00000000#32 hr hφ hacc) hc) hb (ix2 p q)
      = ∑ d : Fin b, w (ix2 q d) * w (ix2 q d) :=
  (broadcastTo_1b_ab_apply _ hb p q).trans ((shapeCast_a_1a_apply _ hc 0 q).trans (laneSum_apply (mulf w w) hr hφ hacc q))

/-- The inner products of the rows of `x` with the rows of `w`, as a rows-by-columns product of `x` with `w` transposed
    into a zero accumulator: at `(p, q)` the sum over `d` of `x[p,d] · w[q,d]`. -/
theorem inner_transposed_apply {a b c : ℕ} {φ₁ φ₂ : FTy} (prec : Option ContractPrecision)
    (x : FVec Ideal ⟨2, ![a, b]⟩ φ₁) (w : FVec Ideal ⟨2, ![c, b]⟩ φ₂)
    (ht : (⟨2, ![c, b]⟩ : Shape).Transposes [1, 0] ⟨2, ![b, c]⟩) (p : Fin a) (q : Fin c) :
    FloatOps.matmul (DotDims.plain a b c) prec x (transpose ⟨2, ![b, c]⟩ [1, 0] w ht) (constant ⟨2, ![a, c]⟩ .f32 0x00000000#32) (ix2 p q)
      = ∑ d : Fin b, x (ix2 p d) * w (ix2 q d) :=
  (Cert.GNN.matmul_plain_zero_apply prec x _ p q).trans
    (Finset.sum_congr rfl fun d _ => congrArg (x (ix2 p d) * ·) (transpose_ix2_apply w ht d q))

end Cert.SqDist

end
-- ==== Proof.KernelValue.lean ====
/-
  The kernel's result array, after the run, is the table of squared distances of the argument arrays.

  Grid point `t` of the 128 stages rows `1024·t … 1024·t + 1023` of `x` and the whole of `w`, and writes back a
  `1024 × 1024` block: rows `1024·t …` of the table, all its columns. Inside the body the squared norms of the staged rows
  of `x` are kept as a column, those of the rows of `w` as a row, both are broadcast over the block and added, and twice
  the product of the staged rows with `w` transposed is subtracted; the narrowing of both operands before the product is
  the identity on the extended reals. So entry `(p, q)` of the block is `Cert.SqDist.entry` of the two staged blocks at
  `(p, q)`, which is the table's entry `(1024·t + p, q)` because row `p` of the staged block of `x` is row `1024·t + p` of
  `x`. The 128 blocks cover the array (row `r` lies in block `r / 1024`), so the array ends holding the table.
-/
import proofs.«148646_j14139032339041_1_alg».proof.Proof.Gen.KernelIdeal.Value
import proofs.«148646_j14139032339041_1_alg».proof.Proof.SqDist

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-! ## One block -/

/-- The body's product contracts the columns of its left operand with the rows of its right one: rows by columns. -/
theorem dot_plain : dot_S1024x128_S128x1024_S1024x1024_1_0_0_1_n_n = DotDims.plain 1024 128 1024 := rfl

/-- Entry `(p, q)` of what the body stores, from the two blocks it loads. -/
theorem pay_apply (x0 x1 : FVec Ideal S1024x128 .f32) (p q : Fin 1024) :
    k0_pay1 (F := Ideal) x0 x1 (ix2 p q) = Cert.SqDist.entry x0 x1 p q := by
  unfold k0_pay1 Cert.SqDist.entry
  dsimp only []
  rw [subf_apply, addf_apply, mulf_apply, broadcast_apply]
  refine congrArg₂ (· - ·) (congrArg₂ (· + ·) ?_ ?_) (congrArg (_ * ·) ?_)
  · exact Cert.SqDist.rowNorms_apply x0 _ _ _ _ _ p q
  · exact Cert.SqDist.colNorms_apply x1 _ _ _ _ _ p q
  · rw [dot_plain]
    exact Cert.SqDist.inner_transposed_apply none _ _ _ p q

/-- The same at any index of the block, and against any arrays `X`, `W` whose rows `i 0` and `i 1` are the blocks' rows
    `j 0` and `j 1`: the table of `X` and `W` at `i`. -/
theorem pay_eq_table (X : FVec Ideal S131072x128 .f32) (W : FVec Ideal S1024x128 .f32) (x0 x1 : FVec Ideal S1024x128 .f32)
    (j : S1024x1024.Idx) (i : S131072x1024.Idx)
    (hx : ∀ d : Fin 128, x0 (ix2 (j 0) d) = X (ix2 (i 0) d)) (hw : ∀ d : Fin 128, x1 (ix2 (j 1) d) = W (ix2 (i 1) d)) :
    k0_pay1 (F := Ideal) x0 x1 j = Cert.SqDist.table X W i := by
  obtain ⟨p, q, rfl⟩ : ∃ (p q : Fin 1024), j = ix2 p q := ⟨j 0, j 1, eq_ix2 j⟩
  rw [pay_apply]
  exact Cert.SqDist.entry_congr _ _ _ _ _ _ _ _ hx hw

/-! ## From the blocks to the array -/

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the block of `x` moves down with the output's block, always in column block 0;
    the block of `w` stays put; the output's block is row block `t`, column block 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem idx_onto : ∀ r : Fin 128, ∃ t : Fin cfg0.N, win0_2.index t = ![r.val, 0] :=
  (by decide +kernel : ∀ r : Fin 128, ∃ t : Fin grid0.N, win0_2.index t = ![r.val, 0])

/-- WHAT POINT `t` WRITES BACK is block `t` of the table of the argument arrays. -/
theorem flushed_eq (c : Dev nD) (t : Fin cfg0.N) :
    (dats m 0 c).flushed 2 t
      = ((cfg0.win 2).blk t).view.read (Elt Ideal) (Cert.SqDist.table (V m c main_arg0) (V m c main_arg1)) := by
  rw [Cert.KernelIdeal.Value.flushed2]
  unfold out0_2
  rw [View.canon_unit_zero zero_offsets]
  simp only [View.ld_unit_zero (S := S1024x128) zero_offsets]
  obtain ⟨e0, e1, e2, e3, e4⟩ := idx_facts t
  funext j
  show k0_pay1 (F := Ideal) (iblk m c 0 t) (iblk m c 1 t) j
    = Cert.SqDist.table (V m c main_arg0) (V m c main_arg1) (((cfg0.win 2).blk t).view.emb j)
  refine pay_eq_table (V m c main_arg0) (V m c main_arg1) (iblk m c 0 t) (iblk m c 1 t) j (((cfg0.win 2).blk t).view.emb j)
    (fun d => ?_) (fun d => ?_)
  · show V m c main_arg0 (((cfg0.win 0).blk t).view.emb (ix2 (j 0) d)) = V m c main_arg0 (ix2 ((((cfg0.win 2).blk t).view.emb j) 0) d)
    refine congrArg (V m c main_arg0) (funext fun a => Fin.ext ?_)
    match a with
    | ⟨0, _⟩ =>
      show win0_0.index t (0 : Fin 2) * 1024 + 1 * (j 0).val = win0_2.index t (0 : Fin 2) * 1024 + 1 * (j 0).val
      rw [e0]
    | ⟨1, _⟩ =>
      show win0_0.index t (1 : Fin 2) * 128 + 1 * d.val = d.val
      rw [e1]; omega
  · show V m c main_arg1 (((cfg0.win 1).blk t).view.emb (ix2 (j 1) d)) = V m c main_arg1 (ix2 ((((cfg0.win 2).blk t).view.emb j) 1) d)
    refine congrArg (V m c main_arg1) (funext fun a => Fin.ext ?_)
    match a with
    | ⟨0, _⟩ =>
      show win0_1.index t (0 : Fin 2) * 1024 + 1 * (j 1).val = win0_2.index t (1 : Fin 2) * 1024 + 1 * (j 1).val
      rw [e2, e4]
    | ⟨1, _⟩ =>
      show win0_1.index t (1 : Fin 2) * 128 + 1 * d.val = d.val
      rw [e3]; omega

/-- An index of the array is in point `t`'s block iff each coordinate is in the block's range on its axis. -/
theorem mem_blk (t : Fin cfg0.N) (i : S131072x1024.Idx) :
    i ∈ ((cfg0.win 2).blk t).view.set
      ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The blocks cover the array: row `r` lies in the block of point `r / 1024`. -/
theorem cover (i : S131072x1024.Idx) : ∃ t : Fin cfg0.N, (cfg0.win 2).flush t = true ∧ i ∈ ((cfg0.win 2).blk t).view.set := by
  have hi0 : (i 0).val < 131072 := (i 0).isLt
  have hi1 : (i 1).val < 1024 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE ARRAY after the run is the table of the argument arrays. -/
theorem final (c : Dev nD) :
    (dats m 0 c).arrAt 2 cfg0.N = Cert.SqDist.table (m ((c : Thread nD τ).loc main_arg0)) (m ((c : Thread nD τ).loc main_arg1)) :=
  (dats m 0 c).arrAt_eq_of_cover 2 (Cert.SqDist.table (V m c main_arg0) (V m c main_arg1)) (fun t _ => flushed_eq m c t) cover

/-- The kernel's run: the result array ends at the table, the arguments as they were. -/
theorem run : θ_run defs (onTc (τ := τ) (main (F := Ideal))) ⟨m, fun _ => 0, ρ⟩ fun r => ∀ c : Dev nD,
      r.2.mem ((c : Thread nD τ).loc main_v0)
        = Cert.SqDist.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.KValue

end
-- ==== Proof.RefValue.lean ====
/-
  The reference's result, read entry by entry, is the table of squared distances.

  The reference forms the squared norms of the rows of `x` as a column `[N, 1]` and those of the rows of `w` as a row
  `[1, C]`, broadcasts both over the `[N, C]` table and adds them, and subtracts twice the product of `x` with `w`
  contracted over their common last axis. Read at entry `(p, q)`: the column's entry is the sum over `d` of `x[p,d]²` (on
  top of the zero the sum starts from), the row's the sum over `d` of `w[q,d]²`, and the product's the sum over `d` of
  `x[p,d] · w[q,d]`, so the entry is exactly `Cert.SqDist.entry x w p q`; the only law used is `0 + a = a`.
-/
import proofs.«148646_j14139032339041_1_alg».proof.Proof.Gen.ReferenceIdeal.Read
import proofs.«148646_j14139032339041_1_alg».proof.Proof.SqDist

noncomputable section

namespace Cert.ReferenceIdeal.RefValue

open Cert.ReferenceIdeal Cert.ReferenceIdeal.Read Idealize.ShloMosaic Idealize.ShloMosaic.ValueIdx

/-- Entry `(p, q)` of the reference's result. -/
theorem result_apply (x : (⟨S131072x128, .f32⟩ : BufTy).Contents (Elt Ideal)) (w : (⟨S1024x128, .f32⟩ : BufTy).Contents (Elt Ideal))
    (p : Fin 131072) (q : Fin 1024) :
    val_main_v12 (F := Ideal) x w (ix2 p q) = Cert.SqDist.entry x w p q := by
  -- the rows of `x` and of `w` each operation reads, composed down to the arguments
  have ex : ∀ k : Fin 128, idx_main_v1 (idx_main_v2 (idx_main_v7 (ix2 p q))) k = ix2 p k := fun k =>
    funext fun a => Fin.ext (by match a with | ⟨0, _⟩ => rfl | ⟨1, _⟩ => rfl)
  have ew : ∀ k : Fin 128, idx_main_v4 (idx_main_v6 (idx_main_v8 (ix2 p q))) k = ix2 q k := fun k =>
    funext fun a => Fin.ext (by match a with | ⟨0, _⟩ => rfl | ⟨1, _⟩ => rfl)
  have el : ∀ k : Fin 128, lidx_main_v5 (ix2 p q) k = ix2 p k := fun k =>
    funext fun a => Fin.ext (by match a with | ⟨0, _⟩ => rfl | ⟨1, _⟩ => rfl)
  have er : ∀ k : Fin 128, ridx_main_v5 (ix2 p q) k = ix2 q k := fun k =>
    funext fun a => Fin.ext (by match a with | ⟨0, _⟩ => rfl | ⟨1, _⟩ => rfl)
  rw [val_main_v12_apply, val_main_v9_apply, val_main_v11_apply, val_main_v7_apply, val_main_v2_apply, val_main_v1_apply,
    val_main_v8_apply, val_main_v6_apply, val_main_v4_apply, val_main_v10_apply, val_main_cst_1_apply, val_main_v5_apply,
    val_main_cst_apply, val_main_cst_0_apply]
  simp only [ex, ew, el, er, val_main_v0_apply, val_main_v3_apply]
  show (Ideal.ofBits .f32 0x00000000#32 + ∑ k : Fin 128, x (ix2 p k) * x (ix2 p k))
      + (Ideal.ofBits .f32 0x00000000#32 + ∑ k : Fin 128, w (ix2 q k) * w (ix2 q k))
      - Ideal.ofBits .f32 0x40000000#32 * ∑ k : Fin 128, x (ix2 p k) * w (ix2 q k) = _
  rw [Ideal.ofBits_zero_f32, zero_add, zero_add]
  rfl

/-- The reference's result IS the table. -/
theorem result_eq (x : (⟨S131072x128, .f32⟩ : BufTy).Contents (Elt Ideal)) (w : (⟨S1024x128, .f32⟩ : BufTy).Contents (Elt Ideal)) :
    val_main_v12 (F := Ideal) x w = Cert.SqDist.table x w := by
  funext i
  obtain ⟨p, q, rfl⟩ : ∃ (p : Fin 131072) (q : Fin 1024), i = ix2 p q := ⟨i 0, i 1, eq_ix2 i⟩
  exact result_apply x w p q

end Cert.ReferenceIdeal.RefValue

end
-- ==== Proof.lean ====
/-
  Pairwise squared distances, `out[n, c] = |x[n] − w[c]|²` for `x : [131072, 128]` and `w : [1024, 128]`, computed by both
  programs through the expansion `|x[n]|² + |w[c]|² − 2 · x[n]·w[c]`.

  The kernel walks `x` in 128 slabs of 1024 rows with `w` resident, and per slab writes a `1024 × 1024` block: the
  slab's squared norms as a column plus the squared norms of `w`'s rows as a row, less twice the product of the slab with
  `w` transposed (both operands narrowed first, which changes nothing on the extended reals). The reference does the same on
  the whole arrays, with the product written as a contraction of the two last axes. On the extended reals both results are,
  entry by entry, `(∑ d, x[n,d]² + ∑ d, w[c,d]²) − 2 · ∑ d, x[n,d] · w[c,d]` (`Cert.SqDist.table`), the three sums and the
  word for `2` the same on both sides and combined in the same order, so the two agree on every input and the precondition
  is not used: `Cert.KernelIdeal.KValue.run` reads the kernel's result array block by block, and
  `Cert.ReferenceIdeal.RefValue.result_eq` the reference's term. The idealization rewrote nothing, so `preserves` is `True`;
  the three frames are the kernels' generated frame runs and the reference's generated run with its result dropped.
-/
import proofs.«148646_j14139032339041_1_alg».proof.Defs
import proofs.«148646_j14139032339041_1_alg».proof.Proof.Gen.Kernel
import proofs.«148646_j14139032339041_1_alg».proof.Proof.Gen.Kernel.Skeleton
import proofs.«148646_j14139032339041_1_alg».proof.Proof.Gen.Kernel.Launch
import proofs.«148646_j14139032339041_1_alg».proof.Proof.Gen.Kernel.Points
import proofs.«148646_j14139032339041_1_alg».proof.Proof.Gen.Kernel.Frame
import proofs.«148646_j14139032339041_1_alg».proof.Proof.Gen.KernelIdeal
import proofs.«148646_j14139032339041_1_alg».proof.Proof.Gen.KernelIdeal.Skeleton
import proofs.«148646_j14139032339041_1_alg».proof.Proof.Gen.KernelIdeal.Launch
import proofs.«148646_j14139032339041_1_alg».proof.Proof.Gen.KernelIdeal.Points
import proofs.«148646_j14139032339041_1_alg».proof.Proof.Gen.KernelIdeal.Frame
import proofs.«148646_j14139032339041_1_alg».proof.Proof.Gen.ReferenceIdeal
import proofs.«148646_j14139032339041_1_alg».proof.Proof.Gen.Pre_finite_inputs
import proofs.«148646_j14139032339041_1_alg».proof.Proof.KernelValue
import proofs.«148646_j14139032339041_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's result are one table of squared distances. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
